-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x256 : Shape := ⟨3, ![32, 1024, 256]⟩
abbrev S20x256 : Shape := ⟨2, ![20, 256]⟩
abbrev S_ : Shape := ⟨0, ![]⟩

class Facts : Prop where
  bcast_S_S32x1024x256 : S_.BroadcastsInDim S32x1024x256 (![] : Fin 0 → Fin S32x1024x256.rank)
  reducesTo_S32x1024x256_S_d0_1_2 : S32x1024x256.ReducesTo [0, 1, 2] S_
  h_S_ : 0 < S_.numel
  bcast_S_S20x256 : S_.BroadcastsInDim S20x256 (![] : Fin 0 → Fin S20x256.rank)
  reducesTo_S20x256_S_d0_1 : S20x256.ReducesTo [0, 1] S_

variable [Facts]

def fn {F : FTy → Type} [FloatOps F] (main_arg0 : FVec F S32x1024x256 .f32) (main_arg1 : FVec F S32x1024x256 .f32) (main_arg2 : FVec F S20x256 .f32) : IVec S_ 1 :=
  let main_v0 : FVec F S32x1024x256 .f32 := Host.absf main_arg0
  let main_cst : FVec F S_ .f32 := constant S_ .f32 0x7F800000#32
  let main_v1 : FVec F S32x1024x256 .f32 := broadcastInDim S32x1024x256 ![] bcast_S_S32x1024x256 main_cst
  let main_v2 : IVec S32x1024x256 1 := cmpf .olt main_v0 main_v1
  let main_c : IVec S_ 1 := constantI S_ 1 1#1
  let main_v3 : IVec S_ 1 := (fun x v => Host.reduce IntOp.andi x v reducesTo_S32x1024x256_S_d0_1_2 h_S_) main_v2 main_c
  let main_v4 : FVec F S32x1024x256 .f32 := Host.absf main_arg1
  let main_cst_0 : FVec F S_ .f32 := constant S_ .f32 0x7F800000#32
  let main_v5 : FVec F S32x1024x256 .f32 := broadcastInDim S32x1024x256 ![] bcast_S_S32x1024x256 main_cst_0
  let main_v6 : IVec S32x1024x256 1 := cmpf .olt main_v4 main_v5
  let main_c_1 : IVec S_ 1 := constantI S_ 1 1#1
  let main_v7 : IVec S_ 1 := (fun x v => Host.reduce IntOp.andi x v reducesTo_S32x1024x256_S_d0_1_2 h_S_) main_v6 main_c_1
  let main_v8 : IVec S_ 1 := andi main_v3 main_v7
  let main_v9 : FVec F S20x256 .f32 := Host.absf main_arg2
  let main_cst_2 : FVec F S_ .f32 := constant S_ .f32 0x7F800000#32
  let main_v10 : FVec F S20x256 .f32 := broadcastInDim S20x256 ![] bcast_S_S20x256 main_cst_2
  let main_v11 : IVec S20x256 1 := cmpf .olt main_v9 main_v10
  let main_c_3 : IVec S_ 1 := constantI S_ 1 1#1
  let main_v12 : IVec S_ 1 := (fun x v => Host.reduce IntOp.andi x v reducesTo_S20x256_S_d0_1 h_S_) main_v11 main_c_3
  let main_v13 : IVec S_ 1 := andi main_v8 main_v12
  main_v13
-- ==== Kernel.lean ====
abbrev S32x1024x256 : Shape := ⟨3, ![32, 1024, 256]⟩
abbrev S20x256 : Shape := ⟨2, ![20, 256]⟩
abbrev S256x20 : Shape := ⟨2, ![256, 20]⟩
abbrev S32x1024x20 : Shape := ⟨3, ![32, 1024, 20]⟩
abbrev S1x1024x256 : Shape := ⟨3, ![1, 1024, 256]⟩
abbrev S1x1024x20 : Shape := ⟨3, ![1, 1024, 20]⟩
abbrev S1024x256 : Shape := ⟨2, ![1024, 256]⟩
abbrev S1024 : Shape := ⟨1, ![1024]⟩
abbrev S1024x1 : Shape := ⟨2, ![1024, 1]⟩
abbrev S256x256 : Shape := ⟨2, ![256, 256]⟩
abbrev S256 : Shape := ⟨1, ![256]⟩
abbrev S1x256 : Shape := ⟨2, ![1, 256]⟩
abbrev S1024x20 : Shape := ⟨2, ![1024, 20]⟩

abbrev nBuf : Space → Nat
  | .hbm => 7
  | .vmem => 9
  | .smem => 0
  | _ => 0

abbrev bufTy : (tb : Table) → Fin (tcTables nBuf tb) → BufTy
  | .hbm, ⟨0, _⟩ => ⟨S32x1024x256, .f32⟩
  | .hbm, ⟨1, _⟩ => ⟨S32x1024x256, .f32⟩
  | .hbm, ⟨2, _⟩ => ⟨S20x256, .f32⟩
  | .hbm, ⟨3, _⟩ => ⟨S20x256, .f32⟩
  | .hbm, ⟨4, _⟩ => ⟨S256x20, .f32⟩
  | .hbm, ⟨5, _⟩ => ⟨S32x1024x20, .f32⟩
  | .hbm, ⟨6, _⟩ => ⟨S32x1024x20, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S256x20, .f32⟩
  | .local _ .vmem, ⟨5, _⟩ => ⟨S1x1024x20, .f32⟩
  | .local _ .vmem, ⟨6, _⟩ => ⟨S1x1024x20, .f32⟩
  | .local _ .vmem, ⟨7, _⟩ => ⟨S1x1024x20, .f32⟩
  | .local _ .vmem, ⟨8, _⟩ => ⟨S1x1024x20, .f32⟩
  | _, _ => ⟨S32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x20 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S20x256_S256x20_1_0 : S20x256.Transposes [1, 0] S256x20
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  reduces_S256x256_S256 : S256x256.Reduces [0] S256
  shapeCasts_S256_S1x256 : S256.ShapeCasts S1x256
  broadcasts_S1x256_S256x256 : S1x256.Broadcasts S256x256
  inb_S256x20_S256x20_0_0 : ∀ a, (![0, 0] : Fin 2 → Nat) a + S256x20.size a ≤ S256x20.size a
  h_S256x20 : 0 < S256x20.numel
  shapeCasts_S256x20_S256x20 : S256x20.ShapeCasts S256x20
  inb_S1x1024x20_S1x1024x20_0_0_0 : ∀ a, (![0, 0, 0] : Fin 3 → Nat) a + S1x1024x20.size a ≤ S1x1024x20.size a
  h_S1x1024x20 : 0 < S1x1024x20.numel
  shapeCasts_S1x1024x20_S1024x20 : S1x1024x20.ShapeCasts S1024x20
  shapeCasts_S1024x20_S1x1024x20 : S1024x20.ShapeCasts S1x1024x20
  dot_S1024x256_S1024x256_S256x256_0_0_1_1_n_n_wf : DotDims.WF S1024x256 S1024x256 S256x256 [0] [0] [1] [1] [] []
  dot_S1024x256_S256x256_S1024x256_1_0_0_1_n_n_wf : DotDims.WF S1024x256 S256x256 S1024x256 [1] [0] [0] [1] [] []
  dot_S1024x256_S256x20_S1024x20_1_0_0_1_n_n_wf : DotDims.WF S1024x256 S256x20 S1024x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S32x1024x256.size a
  hwx0_0 : ∀ i : grid0.Coords, EltTy.bits .f32 = 32 ∨ (Rect.block (s := S32x1024x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S32x1024x256.size a
  hwx0_1 : ∀ i : grid0.Coords, EltTy.bits .f32 = 32 ∨ (Rect.block (s := S32x1024x256) S1x1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x20.size a ≤ S256x20.size a
  hwx0_2 : ∀ i : grid0.Coords, EltTy.bits .f32 = 32 ∨ (Rect.block (s := S256x20) S256x20.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x20.size a ≤ S32x1024x20.size a
  hwx0_3 : ∀ i : grid0.Coords, EltTy.bits .f32 = 32 ∨ (Rect.block (s := S32x1024x20) S1x1024x20.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x20.size a ≤ S32x1024x20.size a
  hwx0_4 : ∀ i : grid0.Coords, EltTy.bits .f32 = 32 ∨ (Rect.block (s := S32x1024x20) S1x1024x20.size (cc0_transform_4 i) (hinb0_4 i)).WholeWords (EltTy.packing .f32)

variable [Facts₀]

def dot_S1024x256_S1024x256_S256x256_0_0_1_1_n_n : DotDims S1024x256 S1024x256 S256x256 where
  lhsContracting := [0]
  rhsContracting := [0]
  lhsNonContracting := [1]
  rhsNonContracting := [1]
  lhsBatch := []
  rhsBatch := []
  wf := dot_S1024x256_S1024x256_S256x256_0_0_1_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x20_S1024x20_1_0_0_1_n_n : DotDims S1024x256 S256x20 S1024x20 where
  lhsContracting := [1]
  rhsContracting := [0]
  lhsNonContracting := [0]
  rhsNonContracting := [1]
  lhsBatch := []
  rhsBatch := []
  wf := dot_S1024x256_S256x20_S1024x20_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x1024x20.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x1024x20.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024x256 : Shape := ⟨3, ![32, 1024, 256]⟩
abbrev S20x256 : Shape := ⟨2, ![20, 256]⟩
abbrev S_ : Shape := ⟨0, ![]⟩
abbrev S32x1024 : Shape := ⟨2, ![32, 1024]⟩
abbrev S32x1024x1 : Shape := ⟨3, ![32, 1024, 1]⟩
abbrev S32x256x256 : Shape := ⟨3, ![32, 256, 256]⟩
abbrev S32x256 : Shape := ⟨2, ![32, 256]⟩
abbrev S32x1x256 : Shape := ⟨3, ![32, 1, 256]⟩
abbrev S32x1024x20 : Shape := ⟨3, ![32, 1024, 20]⟩

abbrev nBuf : Space → Nat
  | .hbm => 52
  | .vmem => 0
  | .smem => 0
  | _ => 0

abbrev bufTy : (tb : Table) → Fin (tcTables nBuf tb) → BufTy
  | .hbm, ⟨0, _⟩ => ⟨S32x1024x256, .f32⟩
  | .hbm, ⟨1, _⟩ => ⟨S32x1024x256, .f32⟩
  | .hbm, ⟨2, _⟩ => ⟨S20x256, .f32⟩
  | .hbm, ⟨3, _⟩ => ⟨S32x1024x256, .f32⟩
  | .hbm, ⟨4, _⟩ => ⟨S_, .f32⟩
  | .hbm, ⟨5, _⟩ => ⟨S32x1024, .f32⟩
  | .hbm, ⟨6, _⟩ => ⟨S32x1024x1, .f32⟩
  | .hbm, ⟨7, _⟩ => ⟨S_, .f32⟩
  | .hbm, ⟨8, _⟩ => ⟨S32x1024x1, .f32⟩
  | .hbm, ⟨9, _⟩ => ⟨S32x1024x1, .f32⟩
  | .hbm, ⟨10, _⟩ => ⟨S32x1024x1, .f32⟩
  | .hbm, ⟨11, _⟩ => ⟨S32x1024x256, .f32⟩
  | .hbm, ⟨12, _⟩ => ⟨S32x1024x256, .f32⟩
  | .hbm, ⟨13, _⟩ => ⟨S32x1024x256, .f32⟩
  | .hbm, ⟨14, _⟩ => ⟨S_, .f32⟩
  | .hbm, ⟨15, _⟩ => ⟨S32x1024, .f32⟩
  | .hbm, ⟨16, _⟩ => ⟨S32x1024x1, .f32⟩
  | .hbm, ⟨17, _⟩ => ⟨S_, .f32⟩
  | .hbm, ⟨18, _⟩ => ⟨S32x1024x1, .f32⟩
  | .hbm, ⟨19, _⟩ => ⟨S32x1024x1, .f32⟩
  | .hbm, ⟨20, _⟩ => ⟨S32x1024x1, .f32⟩
  | .hbm, ⟨21, _⟩ => ⟨S32x1024x256, .f32⟩
  | .hbm, ⟨22, _⟩ => ⟨S32x1024x256, .f32⟩
  | .hbm, ⟨23, _⟩ => ⟨S32x256x256, .f32⟩
  | .hbm, ⟨24, _⟩ => ⟨S32x256x256, .f32⟩
  | .hbm, ⟨25, _⟩ => ⟨S_, .f32⟩
  | .hbm, ⟨26, _⟩ => ⟨S32x256, .f32⟩
  | .hbm, ⟨27, _⟩ => ⟨S32x1x256, .f32⟩
  | .hbm, ⟨28, _⟩ => ⟨S_, .f32⟩
  | .hbm, ⟨29, _⟩ => ⟨S32x1x256, .f32⟩
  | .hbm, ⟨30, _⟩ => ⟨S32x1x256, .f32⟩
  | .hbm, ⟨31, _⟩ => ⟨S32x1x256, .f32⟩
  | .hbm, ⟨32, _⟩ => ⟨S32x256x256, .f32⟩
  | .hbm, ⟨33, _⟩ => ⟨S32x256x256, .f32⟩
  | .hbm, ⟨34, _⟩ => ⟨S32x1024x256, .f32⟩
  | .hbm, ⟨35, _⟩ => ⟨S20x256, .f32⟩
  | .hbm, ⟨36, _⟩ => ⟨S32x1024x256, .f32⟩
  | .hbm, ⟨37, _⟩ => ⟨S32x1024x20, .f32⟩
  | .hbm, ⟨38, _⟩ => ⟨S32x1024x256, .f32⟩
  | .hbm, ⟨39, _⟩ => ⟨S32x1024x20, .f32⟩
  | .hbm, ⟨40, _⟩ => ⟨S32x1024x256, .f32⟩
  | .hbm, ⟨41, _⟩ => ⟨S32x1024x20, .f32⟩
  | .hbm, ⟨42, _⟩ => ⟨S_, .f32⟩
  | .hbm, ⟨43, _⟩ => ⟨S32x1024x20, .f32⟩
  | .hbm, ⟨44, _⟩ => ⟨S32x1024x20, .f32⟩
  | .hbm, ⟨45, _⟩ => ⟨S32x1024x20, .f32⟩
  | .hbm, ⟨46, _⟩ => ⟨S_, .f32⟩
  | .hbm, ⟨47, _⟩ => ⟨S32x1024x20, .f32⟩
  | .hbm, ⟨48, _⟩ => ⟨S32x1024x20, .f32⟩
  | .hbm, ⟨49, _⟩ => ⟨S32x1024x20, .f32⟩
  | .hbm, ⟨50, _⟩ => ⟨S32x1024x20, .f32⟩
  | .hbm, ⟨51, _⟩ => ⟨S32x1024x20, .f32⟩
  | _, _ => ⟨S32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]

class Facts₀ : Prop where
  reducesTo_S32x1024x256_S32x1024_d2 : S32x1024x256.ReducesTo [2] S32x1024
  h_S_ : 0 < S_.numel
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S32x1024x1_S32x1024x256_0_1_2 : S32x1024x1.BroadcastsInDim S32x1024x256 (![0, 1, 2] : Fin 3 → Fin S32x1024x256.rank)
  reducesTo_S32x256x256_S32x256_d1 : S32x256x256.ReducesTo [1] S32x256
  bcast_S32x256_S32x1x256_0_2 : S32x256.BroadcastsInDim S32x1x256 (![0, 2] : Fin 2 → Fin S32x1x256.rank)
  bcast_S_S32x1x256 : S_.BroadcastsInDim S32x1x256 (![] : Fin 0 → Fin S32x1x256.rank)
  bcast_S32x1x256_S32x256x256_0_1_2 : S32x1x256.BroadcastsInDim S32x256x256 (![0, 1, 2] : Fin 3 → Fin S32x256x256.rank)
  bcast_S_S32x1024x20 : S_.BroadcastsInDim S32x1024x20 (![] : Fin 0 → Fin S32x1024x20.rank)
  dot_S32x1024x256_S32x1024x256_S32x256x256_1_1_2_2_0_0_wf : DotDims.WF S32x1024x256 S32x1024x256 S32x256x256 [1] [1] [2] [2] [0] [0]
  dot_S32x1024x256_S32x256x256_S32x1024x256_2_1_1_2_0_0_wf : DotDims.WF S32x1024x256 S32x256x256 S32x1024x256 [2] [1] [1] [2] [0] [0]
  dot_S32x1024x256_S20x256_S32x1024x20_2_1_01_0_n_n_wf : DotDims.WF S32x1024x256 S20x256 S32x1024x20 [2] [1] [0, 1] [0] [] []

variable [Facts₀]

def dot_S32x1024x256_S32x1024x256_S32x256x256_1_1_2_2_0_0 : DotDims S32x1024x256 S32x1024x256 S32x256x256 where
  lhsContracting := [1]
  rhsContracting := [1]
  lhsNonContracting := [2]
  rhsNonContracting := [2]
  lhsBatch := [0]
  rhsBatch := [0]
  wf := dot_S32x1024x256_S32x1024x256_S32x256x256_1_1_2_2_0_0_wf
def dot_S32x1024x256_S32x256x256_S32x1024x256_2_1_1_2_0_0 : DotDims S32x1024x256 S32x256x256 S32x1024x256 where
  lhsContracting := [2]
  rhsContracting := [1]
  lhsNonContracting := [1]
  rhsNonContracting := [2]
  lhsBatch := [0]
  rhsBatch := [0]
  wf := dot_S32x1024x256_S32x256x256_S32x1024x256_2_1_1_2_0_0_wf
def dot_S32x1024x256_S20x256_S32x1024x20_2_1_01_0_n_n : DotDims S32x1024x256 S20x256 S32x1024x20 where
  lhsContracting := [2]
  rhsContracting := [1]
  lhsNonContracting := [0, 1]
  rhsNonContracting := [0]
  lhsBatch := []
  rhsBatch := []
  wf := dot_S32x1024x256_S20x256_S32x1024x20_2_1_01_0_n_n_wf

class Facts : Prop extends Facts₀ where

variable [Facts]
-- ==== Proof.Spec.lean ====
/-
  The function both programs compute, written once over plain coordinates.

  For one batch entry, with `a`, `b` the two [1024, 256] inputs and `w2` the [20, 256] table of squared weights:
  each row of `a` and of `b` is divided by the guarded root of its sum of squares (`rowNorm`); the [256, 256]
  correlation of the two normalised inputs sums over the 1024 rows (`corr`); each of its columns is divided by the
  guarded root of the column's sum of squares (`colNorm`); the normalised `b` times that matrix is `hmean`; and the
  result at (row `t`, perspective `p`) is the `w2`-weighted inner product of `a` and `hmean` on row `t` over the
  product of the guarded roots of the `w2`-weighted squared lengths of the two rows (`persp`).
  The guarded root of `s` is `sqrt (max s ε)`, `ε` the float word both programs carry.
  Every sum is a finite sum in the extended reals, where addition is commutative and associative, so the order in
  which either program adds the terms does not matter; no other law of arithmetic is used.
-/
import Idealize.ShloMosaic.PureOps.Ideal
import Idealize.ShloMosaic.Lib.ValueIdx

noncomputable section

open scoped BigOperators

namespace Cert.Persp

open Idealize.ShloMosaic Idealize.ShloMosaic.ValueIdx

/-- The guard `ε` under every square root: the one float word both programs carry, never evaluated. -/
abbrev eps : EReal := Ideal.ofBits .f32 0x2B8CBCCC#32

/-- The guarded root: `sqrt (max s ε)`. -/
def groot (s : EReal) : EReal := Ideal.sqrt (max s eps)

/-- Row `t` of `x` divided by the guarded root of the row's sum of squares. -/
def rowNorm (x : Fin 1024 → Fin 256 → EReal) (t : Fin 1024) (d : Fin 256) : EReal :=
  Ideal.div (x t d) (groot (∑ k : Fin 256, x t k * x t k))

/-- The correlation of the normalised inputs: entry `(d, e)` sums, over the rows, column `d` of the normalised `b`
    times column `e` of the normalised `a`. -/
def corr (a b : Fin 1024 → Fin 256 → EReal) (d e : Fin 256) : EReal :=
  ∑ t : Fin 1024, rowNorm b t d * rowNorm a t e

/-- Column `e` of `z` divided by the guarded root of the column's sum of squares. -/
def colNorm (z : Fin 256 → Fin 256 → EReal) (d e : Fin 256) : EReal :=
  Ideal.div (z d e) (groot (∑ k : Fin 256, z k e * z k e))

/-- The normalised `b` times the column-normalised correlation. -/
def hmean (a b : Fin 1024 → Fin 256 → EReal) (t : Fin 1024) (e : Fin 256) : EReal :=
  ∑ d : Fin 256, rowNorm b t d * colNorm (corr a b) d e

/-- Row `t` of `x` against row `p` of the squared weights. -/
def proj (x : Fin 1024 → Fin 256 → EReal) (w2 : Fin 20 → Fin 256 → EReal) (t : Fin 1024) (p : Fin 20) : EReal :=
  ∑ d : Fin 256, x t d * w2 p d

/-- The result for one batch entry at (row `t`, perspective `p`). -/
def persp (a b : Fin 1024 → Fin 256 → EReal) (w2 : Fin 20 → Fin 256 → EReal) (t : Fin 1024) (p : Fin 20) : EReal :=
  Ideal.div (proj (fun t d => a t d * hmean a b t d) w2 t p)
    (groot (proj (fun t d => a t d * a t d) w2 t p) * groot (proj (fun t d => hmean a b t d * hmean a b t d) w2 t p))

/-- Batch entry `n` of a [32, 1024, 256] array as a matrix. -/
def slab (A : (⟨3, ![32, 1024, 256]⟩ : Shape).Idx → EReal) (n : Fin 32) : Fin 1024 → Fin 256 → EReal :=
  fun t d => A (ix3 n t d)

/-- The squared weights as a matrix. -/
def wsq (W : (⟨2, ![20, 256]⟩ : Shape).Idx → EReal) : Fin 20 → Fin 256 → EReal :=
  fun p d => W (ix2 p d) * W (ix2 p d)

/-- The whole result at coordinates `(n, t, p)`. -/
def Gat (A B : (⟨3, ![32, 1024, 256]⟩ : Shape).Idx → EReal) (W : (⟨2, ![20, 256]⟩ : Shape).Idx → EReal)
    (n : Fin 32) (t : Fin 1024) (p : Fin 20) : EReal :=
  persp (slab A n) (slab B n) (wsq W) t p

/-- The whole [32, 1024, 20] result as one function of the three argument arrays. -/
def G (A B : (⟨3, ![32, 1024, 256]⟩ : Shape).Idx → EReal) (W : (⟨2, ![20, 256]⟩ : Shape).Idx → EReal) :
    (⟨3, ![32, 1024, 20]⟩ : Shape).Idx → EReal :=
  fun i => Gat A B W (i 0) (i 1) (i 2)

theorem G_ix3 (A B : (⟨3, ![32, 1024, 256]⟩ : Shape).Idx → EReal) (W : (⟨2, ![20, 256]⟩ : Shape).Idx → EReal)
    (n : Fin 32) (t : Fin 1024) (p : Fin 20) : G A B W (ix3 n t p) = Gat A B W n t p := rfl

end Cert.Persp

end
-- ==== Proof.KernelOps.lean ====
/-
  The kernel body's vector operations read at an index, at the ideal values.

  Each of the body's non-pointwise steps is read here as the formula of the specification: the three matrix
  products into a zero accumulator as plain sums over the contracted coordinate (the first contracts the ROW
  coordinate of both operands, so it is a product with the left operand transposed), the row normalisation
  (a lane sum of squares, kept as a column, guarded, rooted, broadcast back along the row) and the column
  normalisation (the same down the columns). A change of float format is the identity at the ideal values, so the
  narrowed operands of the products are the values themselves.
-/
import proofs.«166553_j19155554140815_1_alg».proof.Proof.Gen.KernelIdeal.Skeleton
import proofs.«166553_j19155554140815_1_alg».proof.Proof.Spec
import Idealize.ShloMosaic.PureOps.Ideal.Laws
import Idealize.ShloMosaic.Lib.ValueIdx
import Idealize.ShloMosaic.Lib.Pipeline.Value

noncomputable section

open scoped BigOperators

namespace Cert.Persp.Kernel

open Cert.KernelIdeal Cert.KernelIdeal.Gen Idealize.ShloMosaic Idealize.ShloMosaic.ValueIdx Cert.Persp

/-! ## The three matrix products as sums -/

theorem mmT_lhs_contr (i : S256x256.Idx) (q : dot_S1024x256_S1024x256_S256x256_0_0_1_1_n_n.contr.Idx) :
    (dot_S1024x256_S1024x256_S256x256_0_0_1_1_n_n.lhsIdx i q 0).val = (q ⟨0, by decide⟩).val :=
  dot_S1024x256_S1024x256_S256x256_0_0_1_1_n_n.lhsIdx_val_of_single rfl i q
theorem mmT_lhs_free (i : S256x256.Idx) (q : dot_S1024x256_S1024x256_S256x256_0_0_1_1_n_n.contr.Idx) :
    (dot_S1024x256_S1024x256_S256x256_0_0_1_1_n_n.lhsIdx i q 1).val = (i 0).val := by
  unfold DotDims.lhsIdx
  rw [dif_neg (show ¬(1 : Fin S1024x256.rank) ∈ dot_S1024x256_S1024x256_S256x256_0_0_1_1_n_n.lhsBatch by decide), dif_pos (show (1 : Fin S1024x256.rank) ∈ dot_S1024x256_S1024x256_S256x256_0_0_1_1_n_n.lhsNonContracting by decide)]
  rfl
theorem mmT_rhs_contr (i : S256x256.Idx) (q : dot_S1024x256_S1024x256_S256x256_0_0_1_1_n_n.contr.Idx) :
    (dot_S1024x256_S1024x256_S256x256_0_0_1_1_n_n.rhsIdx i q 0).val = (q ⟨0, by decide⟩).val :=
  dot_S1024x256_S1024x256_S256x256_0_0_1_1_n_n.rhsIdx_val_of_single rfl i q
theorem mmT_rhs_free (i : S256x256.Idx) (q : dot_S1024x256_S1024x256_S256x256_0_0_1_1_n_n.contr.Idx) :
    (dot_S1024x256_S1024x256_S256x256_0_0_1_1_n_n.rhsIdx i q 1).val = (i 1).val := by
  unfold DotDims.rhsIdx
  rw [dif_neg (show ¬(1 : Fin S1024x256.rank) ∈ dot_S1024x256_S1024x256_S256x256_0_0_1_1_n_n.rhsBatch by decide), dif_pos (show (1 : Fin S1024x256.rank) ∈ dot_S1024x256_S1024x256_S256x256_0_0_1_1_n_n.rhsNonContracting by decide)]
  rfl

/-- The product that contracts the row coordinate of both operands: entry `(p, q)` sums column `p` of the left operand against column `q` of the right. -/
theorem mmT_apply {φ₁ φ₂ : FTy} (u : FVec Ideal S1024x256 φ₁) (v : FVec Ideal S1024x256 φ₂) (p : Fin 256) (q : Fin 256) :
    matmul dot_S1024x256_S1024x256_S256x256_0_0_1_1_n_n none u v (constant S256x256 .f32 0x00000000#32) (ix2 p q) = ∑ k : Fin 1024, u (ix2 k p) * v (ix2 k q) := by
  refine (Ideal.matmul_constant_zero_apply dot_S1024x256_S1024x256_S256x256_0_0_1_1_n_n none u v (ix2 p q)).trans ?_
  rw [← Equiv.sum_comp (contrEquiv1 dot_S1024x256_S1024x256_S256x256_0_0_1_1_n_n 1024 rfl rfl).symm]
  refine Finset.sum_congr rfl fun k _ => ?_
  have hk := contrEquiv1_symm_val dot_S1024x256_S1024x256_S256x256_0_0_1_1_n_n 1024 rfl rfl k
  have el : dot_S1024x256_S1024x256_S256x256_0_0_1_1_n_n.lhsIdx (ix2 p q) ((contrEquiv1 dot_S1024x256_S1024x256_S256x256_0_0_1_1_n_n 1024 rfl rfl).symm k) = ix2 k p := funext fun a => Fin.ext (by
    match a with
    | ⟨0, _⟩ => exact (mmT_lhs_contr _ _).trans hk
    | ⟨1, _⟩ => exact mmT_lhs_free _ _)
  have er : dot_S1024x256_S1024x256_S256x256_0_0_1_1_n_n.rhsIdx (ix2 p q) ((contrEquiv1 dot_S1024x256_S1024x256_S256x256_0_0_1_1_n_n 1024 rfl rfl).symm k) = ix2 k q := funext fun a => Fin.ext (by
    match a with
    | ⟨0, _⟩ => exact (mmT_rhs_contr _ _).trans hk
    | ⟨1, _⟩ => exact mmT_rhs_free _ _)
  rw [el, er]

theorem mmS_lhs_contr (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem mmS_lhs_free (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem mmS_rhs_contr (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem mmS_rhs_free (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The [1024, 256] × [256, 256] product: entry `(p, q)` sums row `p` of the left operand against column `q` of the right. -/
theorem mmS_apply {φ₁ φ₂ : FTy} (u : FVec Ideal S1024x256 φ₁) (v : FVec Ideal S256x256 φ₂) (p : Fin 1024) (q : Fin 256) :
    matmul dot_S1024x256_S256x256_S1024x256_1_0_0_1_n_n none u v (constant S1024x256 .f32 0x00000000#32) (ix2 p q) = ∑ k : Fin 256, u (ix2 p k) * v (ix2 k q) := by
  refine (Ideal.matmul_constant_zero_apply dot_S1024x256_S256x256_S1024x256_1_0_0_1_n_n none u v (ix2 p q)).trans ?_
  rw [← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k := funext fun a => Fin.ext (by
    match a with
    | ⟨0, _⟩ => exact mmS_lhs_free _ _
    | ⟨1, _⟩ => exact (mmS_lhs_contr _ _).trans hk)
  have er : dot_S1024x256_S256x256_S1024x256_1_0_0_1_n_n.rhsIdx (ix2 p q) ((contrEquiv1 dot_S1024x256_S256x256_S1024x256_1_0_0_1_n_n 256 rfl rfl).symm k) = ix2 k q := funext fun a => Fin.ext (by
    match a with
    | ⟨0, _⟩ => exact (mmS_rhs_contr _ _).trans hk
    | ⟨1, _⟩ => exact mmS_rhs_free _ _)
  rw [el, er]

theorem mmW_lhs_contr (i : S1024x20.Idx) (q : dot_S1024x256_S256x20_S1024x20_1_0_0_1_n_n.contr.Idx) :
    (dot_S1024x256_S256x20_S1024x20_1_0_0_1_n_n.lhsIdx i q 1).val = (q ⟨0, by decide⟩).val :=
  dot_S1024x256_S256x20_S1024x20_1_0_0_1_n_n.lhsIdx_val_of_single rfl i q
theorem mmW_lhs_free (i : S1024x20.Idx) (q : dot_S1024x256_S256x20_S1024x20_1_0_0_1_n_n.contr.Idx) :
    (dot_S1024x256_S256x20_S1024x20_1_0_0_1_n_n.lhsIdx i q 0).val = (i 0).val := by
  unfold DotDims.lhsIdx
  rw [dif_neg (show ¬(0 : Fin S1024x256.rank) ∈ dot_S1024x256_S256x20_S1024x20_1_0_0_1_n_n.lhsBatch by decide), dif_pos (show (0 : Fin S1024x256.rank) ∈ dot_S1024x256_S256x20_S1024x20_1_0_0_1_n_n.lhsNonContracting by decide)]
  rfl
theorem mmW_rhs_contr (i : S1024x20.Idx) (q : dot_S1024x256_S256x20_S1024x20_1_0_0_1_n_n.contr.Idx) :
    (dot_S1024x256_S256x20_S1024x20_1_0_0_1_n_n.rhsIdx i q 0).val = (q ⟨0, by decide⟩).val :=
  dot_S1024x256_S256x20_S1024x20_1_0_0_1_n_n.rhsIdx_val_of_single rfl i q
theorem mmW_rhs_free (i : S1024x20.Idx) (q : dot_S1024x256_S256x20_S1024x20_1_0_0_1_n_n.contr.Idx) :
    (dot_S1024x256_S256x20_S1024x20_1_0_0_1_n_n.rhsIdx i q 1).val = (i 1).val := by
  unfold DotDims.rhsIdx
  rw [dif_neg (show ¬(1 : Fin S256x20.rank) ∈ dot_S1024x256_S256x20_S1024x20_1_0_0_1_n_n.rhsBatch by decide), dif_pos (show (1 : Fin S256x20.rank) ∈ dot_S1024x256_S256x20_S1024x20_1_0_0_1_n_n.rhsNonContracting by decide)]
  rfl

/-- The [1024, 256] × [256, 20] product: entry `(p, q)` sums row `p` of the left operand against column `q` of the right. -/
theorem mmW_apply {φ₁ φ₂ : FTy} (u : FVec Ideal S1024x256 φ₁) (v : FVec Ideal S256x20 φ₂) (p : Fin 1024) (q : Fin 20) :
    matmul dot_S1024x256_S256x20_S1024x20_1_0_0_1_n_n none u v (constant S1024x20 .f32 0x00000000#32) (ix2 p q) = ∑ k : Fin 256, u (ix2 p k) * v (ix2 k q) := by
  refine (Ideal.matmul_constant_zero_apply dot_S1024x256_S256x20_S1024x20_1_0_0_1_n_n none u v (ix2 p q)).trans ?_
  rw [← Equiv.sum_comp (contrEquiv1 dot_S1024x256_S256x20_S1024x20_1_0_0_1_n_n 256 rfl rfl).symm]
  refine Finset.sum_congr rfl fun k _ => ?_
  have hk := contrEquiv1_symm_val dot_S1024x256_S256x20_S1024x20_1_0_0_1_n_n 256 rfl rfl k
  have el : dot_S1024x256_S256x20_S1024x20_1_0_0_1_n_n.lhsIdx (ix2 p q) ((contrEquiv1 dot_S1024x256_S256x20_S1024x20_1_0_0_1_n_n 256 rfl rfl).symm k) = ix2 p k := funext fun a => Fin.ext (by
    match a with
    | ⟨0, _⟩ => exact mmW_lhs_free _ _
    | ⟨1, _⟩ => exact (mmW_lhs_contr _ _).trans hk)
  have er : dot_S1024x256_S256x20_S1024x20_1_0_0_1_n_n.rhsIdx (ix2 p q) ((contrEquiv1 dot_S1024x256_S256x20_S1024x20_1_0_0_1_n_n 256 rfl rfl).symm k) = ix2 k q := funext fun a => Fin.ext (by
    match a with
    | ⟨0, _⟩ => exact (mmW_rhs_contr _ _).trans hk
    | ⟨1, _⟩ => exact mmW_rhs_free _ _)
  rw [el, er]

/-! ## The two normalisations -/

/-- The guard under a root, as the body splats it. -/
abbrev epsS : Ideal .f32 := Scalar.ofBits .f32 0x2B8CBCCC#32

/-- The body's row normalisation of a [1024, 256] value: the value over its row's guarded root sum of squares. -/
def rowNormV (x : FVec Ideal S1024x256 .f32) : FVec Ideal S1024x256 .f32 :=
  divf x (broadcastTo S1024x256 (sqrt (maximumf (shapeCast S1024x1
    (multiReduction .add [1] S1024 (mulf x x) 0x00000000#32 reduces_S1024x256_S1024 (.inl rfl) rfl) shapeCasts_S1024_S1024x1)
    (broadcast S1024x1 epsS))) broadcasts_S1024x1_S1024x256)

/-- The body's column normalisation of a [256, 256] value. -/
def colNormV (z : FVec Ideal S256x256 .f32) : FVec Ideal S256x256 .f32 :=
  divf z (broadcastTo S256x256 (sqrt (maximumf (shapeCast S1x256
    (multiReduction .add [0] S256 (mulf z z) 0x00000000#32 reduces_S256x256_S256 (.inl rfl) rfl) shapeCasts_S256_S1x256)
    (broadcast S1x256 epsS))) broadcasts_S1x256_S256x256)

/-- A matrix value as a function of its two coordinates. -/
abbrev mat {M N : Nat} (x : (⟨2, ![M, N]⟩ : Shape).Idx → EReal) : Fin M → Fin N → EReal := fun r c => x (ix2 r c)

theorem rowNormV_apply (x : FVec Ideal S1024x256 .f32) (t : Fin 1024) (d : Fin 256) :
    rowNormV x (ix2 t d) = rowNorm (mat x) t d := by
  show Ideal.div (x (ix2 t d)) _ = Ideal.div (x (ix2 t d)) _
  refine congrArg (Ideal.div (x (ix2 t d))) ?_
  refine (broadcastTo_apply _ broadcasts_S1024x1_S1024x256 (ix2 t d) (ix2 t 0) (fun a => match a with
    | ⟨0, _⟩ => by show t.val = if (1024 : Nat) = 1 then 0 else t.val; rw [if_neg (by decide)]
    | ⟨1, _⟩ => by show 0 = if (1 : Nat) = 1 then 0 else d.val; rw [if_pos rfl])).trans ?_
  show Ideal.sqrt (max (shapeCast S1024x1 _ shapeCasts_S1024_S1024x1 (ix2 t 0)) eps) = Ideal.sqrt (max _ eps)
  refine congrArg (fun s => Ideal.sqrt (max s eps)) ?_
  refine (shapeCast_apply _ shapeCasts_S1024_S1024x1 (ix2 t 0) (ix1 t)
    (by rw [Shape.rowMajor_val_one, Shape.rowMajor_val_two]; show t.val = t.val * 1 + 0; omega)).trans ?_
  refine (Ideal.multiReduction_add_single (mulf x x) 0x00000000#32 reduces_S1024x256_S1024 (.inl rfl) rfl (ix1 t)).trans ?_
  refine Finset.sum_congr rfl fun k _ => ?_
  have e : reduces_S1024x256_S1024.lift (ix1 t) k = ix2 t k :=
    funext fun a => Fin.ext (by match a with | ⟨0, _⟩ => rfl | ⟨1, _⟩ => rfl)
  rw [e]; rfl

theorem colNormV_apply (z : FVec Ideal S256x256 .f32) (d e : Fin 256) :
    colNormV z (ix2 d e) = colNorm (mat z) d e := by
  show Ideal.div (z (ix2 d e)) _ = Ideal.div (z (ix2 d e)) _
  refine congrArg (Ideal.div (z (ix2 d e))) ?_
  refine (broadcastTo_apply _ broadcasts_S1x256_S256x256 (ix2 d e) (ix2 0 e) (fun a => match a with
    | ⟨0, _⟩ => by show 0 = if (1 : Nat) = 1 then 0 else d.val; rw [if_pos rfl]
    | ⟨1, _⟩ => by show e.val = if (256 : Nat) = 1 then 0 else e.val; rw [if_neg (by decide)])).trans ?_
  show Ideal.sqrt (max (shapeCast S1x256 _ shapeCasts_S256_S1x256 (ix2 0 e)) eps) = Ideal.sqrt (max _ eps)
  refine congrArg (fun s => Ideal.sqrt (max s eps)) ?_
  refine (shapeCast_apply _ shapeCasts_S256_S1x256 (ix2 0 e) (ix1 e)
    (by rw [Shape.rowMajor_val_one, Shape.rowMajor_val_two]; show e.val = 0 * 256 + e.val; omega)).trans ?_
  refine (Ideal.multiReduction_add_single (mulf z z) 0x00000000#32 reduces_S256x256_S256 (.inl rfl) rfl (ix1 e)).trans ?_
  refine Finset.sum_congr rfl fun k _ => ?_
  have e' : reduces_S256x256_S256.lift (ix1 e) k = ix2 k e :=
    funext fun a => Fin.ext (by match a with | ⟨0, _⟩ => rfl | ⟨1, _⟩ => rfl)
  rw [e']; rfl

/-! ## The body's value, from its loads -/

/-- The body's correlation of the two row-normalised blocks (`b`'s on the left, contracted over the rows). -/
def corrV (a b : FVec Ideal S1024x256 .f32) : FVec Ideal S256x256 .f32 :=
  matmul dot_S1024x256_S1024x256_S256x256_0_0_1_1_n_n none (truncf .bf16 (rowNormV b) bitsLt_bf16_f32)
    (truncf .bf16 (rowNormV a) bitsLt_bf16_f32) (constant S256x256 .f32 0x00000000#32)

/-- The body's `hmean`: the row-normalised `b` times the column-normalised correlation. -/
def hmeanV (a b : FVec Ideal S1024x256 .f32) : FVec Ideal S1024x256 .f32 :=
  matmul dot_S1024x256_S256x256_S1024x256_1_0_0_1_n_n none (truncf .bf16 (rowNormV b) bitsLt_bf16_f32)
    (truncf .bf16 (colNormV (corrV a b)) bitsLt_bf16_f32) (constant S1024x256 .f32 0x00000000#32)

/-- A [1024, 256] value against the [256, 20] weights. -/
def projV (x : FVec Ideal S1024x256 .bf16) (w : FVec Ideal S256x20 .bf16) : FVec Ideal S1024x20 .f32 :=
  matmul dot_S1024x256_S256x20_S1024x20_1_0_0_1_n_n none x w (constant S1024x20 .f32 0x00000000#32)

/-- The guarded root of a [1024, 20] value. -/
def grootV (s : FVec Ideal S1024x20 .f32) : FVec Ideal S1024x20 .f32 :=
  sqrt (maximumf s (broadcast S1024x20 epsS))

theorem pay5_eq (P0 P1 : Vec Ideal S1x1024x256 .f32) :
    k0_pay5 P0 P1 = hmeanV (k0_pay4 P0) (shapeCast S1024x256 P1 shapeCasts_S1x1024x256_S1024x256) := rfl

theorem pay8_eq (P0 P1 : Vec Ideal S1x1024x256 .f32) (P2 : Vec Ideal S256x20 .f32) :
    k0_pay8 P0 P1 P2 = projV (truncf .bf16 (mulf (k0_pay4 P0) (k0_pay5 P0 P1)) bitsLt_bf16_f32) (k0_pay7 P2) := rfl

theorem pay1_eq (v35 : FVec Ideal S1024x256 .f32) (v38 : FVec Ideal S256x20 .bf16) (v40 : FVec Ideal S1024x20 .f32)
    (v41 : FVec Ideal S1024x256 .bf16) :
    k0_pay1 v35 v38 v40 v41
      = divf v40 (mulf (grootV (projV v41 v38)) (grootV (projV (truncf .bf16 v35 bitsLt_bf16_f32) v38))) := rfl

/-- A loaded [1, 1024, 256] block as a matrix. -/
abbrev blk (P : Vec Ideal S1x1024x256 .f32) : Fin 1024 → Fin 256 → EReal := fun t d => P (ix3 0 t d)

/-- The squeezed block is the block. -/
theorem squeeze_apply (P : Vec Ideal S1x1024x256 .f32) (t : Fin 1024) (d : Fin 256) :
    shapeCast S1024x256 P shapeCasts_S1x1024x256_S1024x256 (ix2 t d) = P (ix3 0 t d) :=
  shapeCast_apply _ shapeCasts_S1x1024x256_S1024x256 (ix2 t d) (ix3 0 t d)
    (by rw [Shape.rowMajor_val_three, Shape.rowMajor_val_two]; show (0 * 1024 + t.val) * 256 + d.val = t.val * 256 + d.val; omega)

theorem mat_squeeze (P : Vec Ideal S1x1024x256 .f32) :
    mat (shapeCast S1024x256 P shapeCasts_S1x1024x256_S1024x256) = blk P :=
  funext fun t => funext fun d => squeeze_apply P t d

theorem pay4_apply (P : Vec Ideal S1x1024x256 .f32) (t : Fin 1024) (d : Fin 256) : k0_pay4 P (ix2 t d) = P (ix3 0 t d) :=
  squeeze_apply P t d

theorem mat_pay4 (P : Vec Ideal S1x1024x256 .f32) : mat (k0_pay4 P) = blk P :=
  funext fun t => funext fun d => pay4_apply P t d

theorem corrV_apply (a b : FVec Ideal S1024x256 .f32) (d e : Fin 256) :
    corrV a b (ix2 d e) = corr (mat a) (mat b) d e := by
  refine (mmT_apply _ _ d e).trans ?_
  refine Finset.sum_congr rfl fun t _ => ?_
  exact congrArg₂ (· * ·) (rowNormV_apply b t d) (rowNormV_apply a t e)

theorem mat_corrV (a b : FVec Ideal S1024x256 .f32) : mat (corrV a b) = corr (mat a) (mat b) :=
  funext fun d => funext fun e => corrV_apply a b d e

theorem hmeanV_apply (a b : FVec Ideal S1024x256 .f32) (t : Fin 1024) (e : Fin 256) :
    hmeanV a b (ix2 t e) = hmean (mat a) (mat b) t e := by
  refine (mmS_apply _ _ t e).trans ?_
  refine Finset.sum_congr rfl fun d _ => ?_
  refine congrArg₂ (· * ·) (rowNormV_apply b t d) ?_
  refine (colNormV_apply (corrV a b) d e).trans ?_
  rw [mat_corrV]

theorem pay5_apply (P0 P1 : Vec Ideal S1x1024x256 .f32) (t : Fin 1024) (e : Fin 256) :
    k0_pay5 P0 P1 (ix2 t e) = hmean (blk P0) (blk P1) t e := by
  rw [pay5_eq, hmeanV_apply, mat_pay4, mat_squeeze]

theorem projV_apply (x : FVec Ideal S1024x256 .bf16) (w : FVec Ideal S256x20 .bf16) (t : Fin 1024) (p : Fin 20) :
    projV x w (ix2 t p) = ∑ d : Fin 256, x (ix2 t d) * w (ix2 d p) :=
  mmW_apply x w t p

/-- The stored weights block, narrowed, read transposed: entry `(d, p)` of the block is row `p`, column `d` of the
    squared weights. -/
theorem pay7_apply (P2 : Vec Ideal S256x20 .f32) (d : Fin 256) (p : Fin 20) : k0_pay7 P2 (ix2 d p) = P2 (ix2 d p) := by
  show shapeCast S256x20 P2 shapeCasts_S256x20_S256x20 (ix2 d p) = _
  rw [shapeCast_self]

/-- THE BODY'S RESULT at `(t, p)`, from its three loads: the specification's `persp` of the two blocks and the
    stored table read transposed. -/
theorem result_apply (P0 P1 : Vec Ideal S1x1024x256 .f32) (P2 : Vec Ideal S256x20 .f32) (t : Fin 1024) (p : Fin 20) :
    k0_pay1 (mulf (k0_pay5 P0 P1) (k0_pay5 P0 P1)) (truncf .bf16 (shapeCast S256x20 P2 shapeCasts_S256x20_S256x20) bitsLt_bf16_f32)
        (k0_pay8 P0 P1 P2) (truncf .bf16 (mulf (shapeCast S1024x256 P0 shapeCasts_S1x1024x256_S1024x256)
          (shapeCast S1024x256 P0 shapeCasts_S1x1024x256_S1024x256)) bitsLt_bf16_f32) (ix2 t p)
      = persp (blk P0) (blk P1) (fun p d => P2 (ix2 d p)) t p := by
  rw [pay1_eq, pay8_eq]
  show Ideal.div (projV _ _ (ix2 t p)) (Ideal.sqrt (max (projV _ _ (ix2 t p)) eps) * Ideal.sqrt (max (projV _ _ (ix2 t p)) eps)) = _
  rw [projV_apply, projV_apply, projV_apply]
  unfold persp groot proj
  refine congrArg₂ Ideal.div ?_ (congrArg₂ (· * ·) (congrArg (fun s => Ideal.sqrt (max s eps)) ?_) (congrArg (fun s => Ideal.sqrt (max s eps)) ?_))
  · refine Finset.sum_congr rfl fun d _ => ?_
    show k0_pay4 P0 (ix2 t d) * k0_pay5 P0 P1 (ix2 t d) * k0_pay7 P2 (ix2 d p) = _
    rw [pay4_apply, pay5_apply, pay7_apply]
  · refine Finset.sum_congr rfl fun d _ => ?_
    show shapeCast S1024x256 P0 shapeCasts_S1x1024x256_S1024x256 (ix2 t d) * shapeCast S1024x256 P0 shapeCasts_S1x1024x256_S1024x256 (ix2 t d)
      * shapeCast S256x20 P2 shapeCasts_S256x20_S256x20 (ix2 d p) = _
    rw [squeeze_apply, shapeCast_self]
  · refine Finset.sum_congr rfl fun d _ => ?_
    show k0_pay5 P0 P1 (ix2 t d) * k0_pay5 P0 P1 (ix2 t d) * shapeCast S256x20 P2 shapeCasts_S256x20_S256x20 (ix2 d p) = _
    rw [pay5_apply, shapeCast_self]

end Cert.Persp.Kernel

end
-- ==== Proof.KernelValue.lean ====
/-
  The kernel's two result arrays after the run, each as the specification's function of the argument arrays.

  The grid has one point per batch entry. Point `n` stages batch entry `n` of the two inputs and the whole [256, 20]
  table — which @main makes from the weights by squaring them and transposing, so that its entry `(d, p)` is the
  square of weight `(p, d)` — and writes back batch entry `n` of each result: the body's value at `(t, p)`, read off
  its three loads, is the specification's `persp` of the two staged matrices and the table read transposed. The 32
  blocks tile each result array, so each array ends at the specification's function everywhere.
-/
import proofs.«166553_j19155554140815_1_alg».proof.Proof.Gen.KernelIdeal.Value
import proofs.«166553_j19155554140815_1_alg».proof.Proof.KernelOps
import Idealize.ShloMosaic.Lib.StableHlo.Run

noncomputable section

open scoped BigOperators

namespace Cert.Persp.KernelRun

open Cert.KernelIdeal Cert.KernelIdeal.Gen Idealize.ShloMosaic Idealize.ShloMosaic.TcCoe Idealize.SL.Sem
open Idealize.ShloMosaic.ValueIdx Cert.Persp Cert.Persp.Kernel
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## What the body leaves in each result block, over its loads as variables -/

theorem out3_apply (x0 x1 : Vec Ideal S1x1024x256 .f32) (x2 : Vec Ideal S256x20 .f32) (u : Fin 1) (t : Fin 1024) (p : Fin 20) :
    out0_3 x0 x1 x2 (ix3 u t p) = persp (blk x0) (blk x1) (fun p d => x2 (ix2 d p)) t p := by
  unfold out0_3
  simp only [View.ld_unit_zero (S := S1x1024x256) hz3, View.ld_unit_zero (S := S256x20) hz2]
  rw [Cert.KernelIdeal.Value.canon3_eq]
  have e : Cert.KernelIdeal.Value.ix3_0 (ix3 u t p) = ix2 t p :=
    funext fun a => Fin.ext (by match a with | ⟨0, _⟩ => rfl | ⟨1, _⟩ => rfl)
  show k0_pay1 _ _ _ _ (Cert.KernelIdeal.Value.ix3_0 (ix3 u t p)) = _
  rw [e]
  exact result_apply x0 x1 x2 t p

theorem out4_apply (x0 x1 : Vec Ideal S1x1024x256 .f32) (x2 : Vec Ideal S256x20 .f32) (u : Fin 1) (t : Fin 1024) (p : Fin 20) :
    out0_4 x0 x1 x2 (ix3 u t p) = persp (blk x0) (blk x1) (fun p d => x2 (ix2 d p)) t p := by
  unfold out0_4
  simp only [View.ld_unit_zero (S := S1x1024x256) hz3, View.ld_unit_zero (S := S256x20) hz2]
  rw [Cert.KernelIdeal.Value.canon4_eq]
  have e : Cert.KernelIdeal.Value.ix4_0 (ix3 u t p) = ix2 t p :=
    funext fun a => Fin.ext (by match a with | ⟨0, _⟩ => rfl | ⟨1, _⟩ => rfl)
  show k0_pay1 _ _ _ _ (Cert.KernelIdeal.Value.ix4_0 (ix3 u t p)) = _
  rw [e]
  exact result_apply x0 x1 x2 t p

/-! ## The table the region finds: the squared weights, transposed -/

/-- The weights as launched. -/
abbrev argW (c : Dev nD) : FVec Ideal S20x256 .f32 := m ((c : Thread nD τ).loc main_arg2)

theorem table_eq (c : Dev nD) :
    V m c main_v1 = (transpose S256x20 [1, 0] (mulf (argW m c) (argW m c)) transposes_S20x256_S256x20_1_0 : FVec Ideal S256x20 .f32) := by
  dsimp only [V, hostOps0]
  after_results

theorem table_apply (c : Dev nD) (d : Fin 256) (p : Fin 20) :
    (V m c main_v1 : FVec Ideal S256x20 .f32) (ix2 d p) = wsq (argW m c) p d := by
  rw [table_eq]
  exact transpose_apply [1, 0] _ transposes_S20x256_S256x20_1_0 (ix2 d p) (ix2 p d)
    (fun b => match b with | ⟨0, _⟩ => rfl | ⟨1, _⟩ => rfl)

/-! ## Where each window's block lies -/

/-- The printed index maps over the 32 points: point `t` stages, and writes back, batch entry `t`; the table's one
    block is the whole table. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- A grid point as a batch entry. -/
abbrev entry (t : Fin cfg0.N) : Fin 32 := Fin.cast N_0 t

/-- The arguments as launched. -/
abbrev argA (c : Dev nD) : FVec Ideal S32x1024x256 .f32 := m ((c : Thread nD τ).loc main_arg0)
abbrev argB (c : Dev nD) : FVec Ideal S32x1024x256 .f32 := m ((c : Thread nD τ).loc main_arg1)

/-- Point `t`'s block of the first input is batch entry `t` of the argument. -/
theorem blockA (c : Dev nD) (t : Fin cfg0.N) : blk (iblk m c 0 t) = slab (argA m c) (entry t) := by
  obtain ⟨h0, h1, h2, -⟩ := idx_facts t
  funext r d
  show V m c main_arg0 (((cfg0.win 0).blk t).view.emb (ix3 0 r d)) = argA m c (ix3 (entry t) r d)
  rw [V_main_arg0]
  refine congrArg (argA m c) (funext fun a => Fin.ext ?_)
  match a with
  | ⟨0, _⟩ => show win0_0.index t (0 : Fin 3) * 1 + 1 * 0 = t.val; omega
  | ⟨1, _⟩ => show win0_0.index t (1 : Fin 3) * 1024 + 1 * r.val = r.val; omega
  | ⟨2, _⟩ => show win0_0.index t (2 : Fin 3) * 256 + 1 * d.val = d.val; omega

/-- Point `t`'s block of the second input is batch entry `t` of the argument. -/
theorem blockB (c : Dev nD) (t : Fin cfg0.N) : blk (iblk m c 1 t) = slab (argB m c) (entry t) := by
  obtain ⟨-, -, -, h0, h1, h2, -⟩ := idx_facts t
  funext r d
  show V m c main_arg1 (((cfg0.win 1).blk t).view.emb (ix3 0 r d)) = argB m c (ix3 (entry t) r d)
  rw [V_main_arg1]
  refine congrArg (argB m c) (funext fun a => Fin.ext ?_)
  match a with
  | ⟨0, _⟩ => show win0_1.index t (0 : Fin 3) * 1 + 1 * 0 = t.val; omega
  | ⟨1, _⟩ => show win0_1.index t (1 : Fin 3) * 1024 + 1 * r.val = r.val; omega
  | ⟨2, _⟩ => show win0_1.index t (2 : Fin 3) * 256 + 1 * d.val = d.val; omega

/-- The table's block, read transposed, is the squared weights. -/
theorem blockW (c : Dev nD) (t : Fin cfg0.N) : (fun (p : Fin 20) (d : Fin 256) => iblk m c 2 t (ix2 d p)) = wsq (argW m c) := by
  obtain ⟨-, -, -, -, -, -, h0, h1, -⟩ := idx_facts t
  funext p d
  show (V m c main_v1 : FVec Ideal S256x20 .f32) (((cfg0.win 2).blk t).view.emb (ix2 d p)) = _
  have e : ((cfg0.win 2).blk t).view.emb (ix2 d p) = ix2 d p := funext fun a => Fin.ext (by
    match a with
    | ⟨0, _⟩ => show win0_2.index t (0 : Fin 2) * 256 + 1 * d.val = d.val; omega
    | ⟨1, _⟩ => show win0_2.index t (1 : Fin 2) * 20 + 1 * p.val = p.val; omega)
  rw [e]
  exact table_apply m c d p

/-! ## What each point writes back -/

theorem flushed3_eq (c : Dev nD) (t : Fin cfg0.N) :
    (dats m 0 c).flushed 3 t = ((cfg0.win 3).blk t).view.read (Elt Ideal) (G (argA m c) (argB m c) (argW m c)) := by
  rw [Cert.KernelIdeal.Value.flushed3]
  obtain ⟨-, -, -, -, -, -, -, -, h0, h1, h2, -⟩ := idx_facts t
  funext y
  obtain ⟨u, r, p, rfl⟩ : ∃ (u : Fin 1) (r : Fin 1024) (p : Fin 20), y = ix3 u r p := ⟨y 0, y 1, y 2, eq_ix3 y⟩
  show out0_3 (iblk m c 0 t) (iblk m c 1 t) (iblk m c 2 t) (ix3 u r p) = G (argA m c) (argB m c) (argW m c) (((cfg0.win 3).blk t).view.emb (ix3 u r p))
  have e : ((cfg0.win 3).blk t).view.emb (ix3 u r p) = ix3 (entry t) r p := funext fun a => Fin.ext (by
    have hu : u.val < 1 := u.isLt
    match a with
    | ⟨0, _⟩ => show win0_3.index t (0 : Fin 3) * 1 + 1 * u.val = t.val; omega
    | ⟨1, _⟩ => show win0_3.index t (1 : Fin 3) * 1024 + 1 * r.val = r.val; omega
    | ⟨2, _⟩ => show win0_3.index t (2 : Fin 3) * 20 + 1 * p.val = p.val; omega)
  rw [e, G_ix3]
  refine (out3_apply _ _ _ u r p).trans ?_
  rw [blockA, blockB, blockW]
  rfl

theorem flushed4_eq (c : Dev nD) (t : Fin cfg0.N) :
    (dats m 0 c).flushed 4 t = ((cfg0.win 4).blk t).view.read (Elt Ideal) (G (argA m c) (argB m c) (argW m c)) := by
  rw [Cert.KernelIdeal.Value.flushed4]
  obtain ⟨-, -, -, -, -, -, -, -, -, -, -, h0, h1, h2⟩ := idx_facts t
  funext y
  obtain ⟨u, r, p, rfl⟩ : ∃ (u : Fin 1) (r : Fin 1024) (p : Fin 20), y = ix3 u r p := ⟨y 0, y 1, y 2, eq_ix3 y⟩
  show out0_4 (iblk m c 0 t) (iblk m c 1 t) (iblk m c 2 t) (ix3 u r p) = G (argA m c) (argB m c) (argW m c) (((cfg0.win 4).blk t).view.emb (ix3 u r p))
  have e : ((cfg0.win 4).blk t).view.emb (ix3 u r p) = ix3 (entry t) r p := funext fun a => Fin.ext (by
    have hu : u.val < 1 := u.isLt
    match a with
    | ⟨0, _⟩ => show win0_4.index t (0 : Fin 3) * 1 + 1 * u.val = t.val; omega
    | ⟨1, _⟩ => show win0_4.index t (1 : Fin 3) * 1024 + 1 * r.val = r.val; omega
    | ⟨2, _⟩ => show win0_4.index t (2 : Fin 3) * 20 + 1 * p.val = p.val; omega)
  rw [e, G_ix3]
  refine (out4_apply _ _ _ u r p).trans ?_
  rw [blockA, blockB, blockW]
  rfl

/-! ## The blocks tile each result array -/

theorem mem_blk3 (t : Fin cfg0.N) (i : S32x1024x20.Idx) :
    i ∈ ((cfg0.win 3).blk t).view.set ↔ ∀ a : Fin 3, win0_3.index t a * S1x1024x20.size a ≤ (i a).val ∧ (i a).val < win0_3.index t a * S1x1024x20.size a + S1x1024x20.size a := by
  show i ∈ ((View.whole main_v2_0).slice (win0_3.rect t)).set ↔ _
  rw [View.set_slice_whole, Rect.mem_set_unit]
  exact Iff.rfl

theorem mem_blk4 (t : Fin cfg0.N) (i : S32x1024x20.Idx) :
    i ∈ ((cfg0.win 4).blk t).view.set ↔ ∀ a : Fin 3, win0_4.index t a * S1x1024x20.size a ≤ (i a).val ∧ (i a).val < win0_4.index t a * S1x1024x20.size a + S1x1024x20.size a := by
  show i ∈ ((View.whole main_v2_1).slice (win0_4.rect t)).set ↔ _
  rw [View.set_slice_whole, Rect.mem_set_unit]
  exact Iff.rfl

/-- The point whose block holds index `i`: its batch coordinate. -/
abbrev pointOf (i : S32x1024x20.Idx) : Fin cfg0.N := ⟨(i 0).val, by have h : (i 0).val < 32 := (i 0).isLt; show (i 0).val < grid0.N; rw [N_0]; exact h⟩

theorem cover3 (i : S32x1024x20.Idx) : ∃ t : Fin cfg0.N, (cfg0.win 3).flush t = true ∧ i ∈ ((cfg0.win 3).blk t).view.set := by
  refine ⟨pointOf i, flush0_3 _, ?_⟩
  obtain ⟨-, -, -, -, -, -, -, -, h0, h1, h2, -⟩ := idx_facts (pointOf i)
  have hp : (pointOf i).val = (i 0).val := rfl
  have b1 : (i 1).val < 1024 := (i 1).isLt
  have b2 : (i 2).val < 20 := (i 2).isLt
  rw [mem_blk3]
  intro a
  match a with
  | ⟨0, _⟩ => show win0_3.index (pointOf i) (0 : Fin 3) * 1 ≤ (i 0).val ∧ (i 0).val < win0_3.index (pointOf i) (0 : Fin 3) * 1 + 1; omega
  | ⟨1, _⟩ => show win0_3.index (pointOf i) (1 : Fin 3) * 1024 ≤ (i 1).val ∧ (i 1).val < win0_3.index (pointOf i) (1 : Fin 3) * 1024 + 1024; omega
  | ⟨2, _⟩ => show win0_3.index (pointOf i) (2 : Fin 3) * 20 ≤ (i 2).val ∧ (i 2).val < win0_3.index (pointOf i) (2 : Fin 3) * 20 + 20; omega

theorem cover4 (i : S32x1024x20.Idx) : ∃ t : Fin cfg0.N, (cfg0.win 4).flush t = true ∧ i ∈ ((cfg0.win 4).blk t).view.set := by
  refine ⟨pointOf i, flush0_4 _, ?_⟩
  obtain ⟨-, -, -, -, -, -, -, -, -, -, -, h0, h1, h2⟩ := idx_facts (pointOf i)
  have hp : (pointOf i).val = (i 0).val := rfl
  have b1 : (i 1).val < 1024 := (i 1).isLt
  have b2 : (i 2).val < 20 := (i 2).isLt
  rw [mem_blk4]
  intro a
  match a with
  | ⟨0, _⟩ => show win0_4.index (pointOf i) (0 : Fin 3) * 1 ≤ (i 0).val ∧ (i 0).val < win0_4.index (pointOf i) (0 : Fin 3) * 1 + 1; omega
  | ⟨1, _⟩ => show win0_4.index (pointOf i) (1 : Fin 3) * 1024 ≤ (i 1).val ∧ (i 1).val < win0_4.index (pointOf i) (1 : Fin 3) * 1024 + 1024; omega
  | ⟨2, _⟩ => show win0_4.index (pointOf i) (2 : Fin 3) * 20 ≤ (i 2).val ∧ (i 2).val < win0_4.index (pointOf i) (2 : Fin 3) * 20 + 20; omega

/-! ## The arrays after the run, and the run -/

theorem final3 (c : Dev nD) : (dats m 0 c).arrAt 3 cfg0.N = G (argA m c) (argB m c) (argW m c) :=
  (dats m 0 c).arrAt_eq_of_cover 3 (G (argA m c) (argB m c) (argW m c)) (fun t _ => flushed3_eq m c t) cover3

theorem final4 (c : Dev nD) : (dats m 0 c).arrAt 4 cfg0.N = G (argA m c) (argB m c) (argW m c) :=
  (dats m 0 c).arrAt_eq_of_cover 4 (G (argA m c) (argB m c) (argW m c)) (fun t _ => flushed4_eq m c t) cover4

/-- THE KERNEL'S RUN: both result arrays end at the specification's function of the arguments as launched, and the
    arguments are unchanged. -/
theorem run : θ_run defs (onTc (τ := τ) (main (F := Ideal))) ⟨m, fun _ => 0, ρ⟩ fun r => ∀ c : Dev nD,
      r.2.mem ((c : Thread nD τ).loc main_v2_0) = G (argA m c) (argB m c) (argW m c)
      ∧ r.2.mem ((c : Thread nD τ).loc main_v2_1) = G (argA m c) (argB m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Cert.KernelIdeal.Value.run_blocks m ρ)

end Cert.Persp.KernelRun

end
-- ==== Proof.RefValue.lean ====
/-
  The reference's result, one operation at a time, is the specification's function of the arguments.

  The reference works on all 32 batch entries at once: every one of its stages, read at a batch coordinate `n`, is
  the matching stage of the specification on batch entry `n` of the arguments — the two row normalisations, the
  batched correlation (contracted over the row coordinate), its column normalisation, the batched product `hmean`,
  the three products against the squared weights (contracted over the weights' column coordinate, so the weights
  enter untransposed), and the closing quotient. The host's sums start from the zero word, which adds nothing.
-/
import proofs.«166553_j19155554140815_1_alg».proof.Proof.Gen.ReferenceIdeal.Read
import proofs.«166553_j19155554140815_1_alg».proof.Proof.Spec

noncomputable section

open scoped BigOperators

namespace Cert.Persp.Ref

open Cert.ReferenceIdeal Cert.ReferenceIdeal.Gen Cert.ReferenceIdeal.Read Idealize.ShloMosaic Idealize.ShloMosaic.ValueIdx Cert.Persp

variable (A B : FVec Ideal S32x1024x256 .f32) (W : FVec Ideal S20x256 .f32)

/-! ## The two row normalisations -/

theorem nrmA_apply (n : Fin 32) (t : Fin 1024) (d : Fin 256) :
    val_main_v7 (F := Ideal) A (ix3 n t d) = rowNorm (slab A n) t d := by
  show Ideal.div (A (ix3 n t d)) (val_main_v6 (F := Ideal) A (ix3 n t d)) = Ideal.div (A (ix3 n t d)) _
  refine congrArg (Ideal.div (A (ix3 n t d))) ?_
  rw [val_main_v6_apply]
  show Ideal.sqrt (max (val_main_v2 (F := Ideal) A (idx_main_v6 (ix3 n t d))) (val_main_v3 (F := Ideal) (idx_main_v6 (ix3 n t d)))) = Ideal.sqrt (max _ eps)
  rw [val_main_v3_apply, val_main_v2_apply, val_main_v1_apply]
  show Ideal.sqrt (max (Ideal.ofBits .f32 0x00000000#32 + ∑ k : Fin 256, val_main_v0 (F := Ideal) A (idx_main_v1 (idx_main_v2 (idx_main_v6 (ix3 n t d))) k)) eps) = _
  rw [Ideal.ofBits_zero_f32, zero_add]
  refine congrArg (fun s => Ideal.sqrt (max s eps)) (Finset.sum_congr rfl fun k _ => ?_)
  have e : idx_main_v1 (idx_main_v2 (idx_main_v6 (ix3 n t d))) k = ix3 n t k :=
    funext fun a => Fin.ext (by match a with | ⟨0, _⟩ => rfl | ⟨1, _⟩ => rfl | ⟨2, _⟩ => rfl)
  rw [e]; rfl

theorem nrmB_apply (n : Fin 32) (t : Fin 1024) (d : Fin 256) :
    val_main_v15 (F := Ideal) B (ix3 n t d) = rowNorm (slab B n) t d := by
  show Ideal.div (B (ix3 n t d)) (val_main_v14 (F := Ideal) B (ix3 n t d)) = Ideal.div (B (ix3 n t d)) _
  refine congrArg (Ideal.div (B (ix3 n t d))) ?_
  rw [val_main_v14_apply]
  show Ideal.sqrt (max (val_main_v10 (F := Ideal) B (idx_main_v14 (ix3 n t d))) (val_main_v11 (F := Ideal) (idx_main_v14 (ix3 n t d)))) = Ideal.sqrt (max _ eps)
  rw [val_main_v11_apply, val_main_v10_apply, val_main_v9_apply]
  show Ideal.sqrt (max (Ideal.ofBits .f32 0x00000000#32 + ∑ k : Fin 256, val_main_v8 (F := Ideal) B (idx_main_v9 (idx_main_v10 (idx_main_v14 (ix3 n t d))) k)) eps) = _
  rw [Ideal.ofBits_zero_f32, zero_add]
  refine congrArg (fun s => Ideal.sqrt (max s eps)) (Finset.sum_congr rfl fun k _ => ?_)
  have e : idx_main_v9 (idx_main_v10 (idx_main_v14 (ix3 n t d))) k = ix3 n t k :=
    funext fun a => Fin.ext (by match a with | ⟨0, _⟩ => rfl | ⟨1, _⟩ => rfl | ⟨2, _⟩ => rfl)
  rw [e]; rfl

/-! ## The correlation, its column normalisation, and `hmean` -/

theorem corr_apply (n : Fin 32) (d e : Fin 256) :
    val_main_v16 (F := Ideal) A B (ix3 n d e) = corr (slab A n) (slab B n) d e := by
  rw [val_main_v16_apply]
  refine Finset.sum_congr rfl fun k _ => ?_
  have el : lidx_main_v16 (ix3 n d e) k = ix3 n k d := funext fun a => Fin.ext (by match a with | ⟨0, _⟩ => rfl | ⟨1, _⟩ => rfl | ⟨2, _⟩ => rfl)
  have er : ridx_main_v16 (ix3 n d e) k = ix3 n k e := funext fun a => Fin.ext (by match a with | ⟨0, _⟩ => rfl | ⟨1, _⟩ => rfl | ⟨2, _⟩ => rfl)
  rw [el, er, nrmB_apply, nrmA_apply]

theorem coln_apply (n : Fin 32) (d e : Fin 256) :
    val_main_v24 (F := Ideal) A B (ix3 n d e) = colNorm (corr (slab A n) (slab B n)) d e := by
  show Ideal.div (val_main_v16 (F := Ideal) A B (ix3 n d e)) (val_main_v23 (F := Ideal) A B (ix3 n d e)) = Ideal.div _ _
  rw [corr_apply, val_main_v23_apply]
  refine congrArg (Ideal.div _) ?_
  show Ideal.sqrt (max (val_main_v19 (F := Ideal) A B (idx_main_v23 (ix3 n d e))) (val_main_v20 (F := Ideal) (idx_main_v23 (ix3 n d e)))) = Ideal.sqrt (max _ eps)
  rw [val_main_v20_apply, val_main_v19_apply, val_main_v18_apply]
  show Ideal.sqrt (max (Ideal.ofBits .f32 0x00000000#32 + ∑ k : Fin 256, val_main_v17 (F := Ideal) A B (idx_main_v18 (idx_main_v19 (idx_main_v23 (ix3 n d e))) k)) eps) = _
  rw [Ideal.ofBits_zero_f32, zero_add]
  refine congrArg (fun s => Ideal.sqrt (max s eps)) (Finset.sum_congr rfl fun k _ => ?_)
  have e' : idx_main_v18 (idx_main_v19 (idx_main_v23 (ix3 n d e))) k = ix3 n k e := funext fun a => Fin.ext (by match a with | ⟨0, _⟩ => rfl | ⟨1, _⟩ => rfl | ⟨2, _⟩ => rfl)
  rw [e']
  show val_main_v16 (F := Ideal) A B (ix3 n k e) * val_main_v16 (F := Ideal) A B (ix3 n k e) = _
  rw [corr_apply]

theorem hmean_apply (n : Fin 32) (t : Fin 1024) (e : Fin 256) :
    val_main_v25 (F := Ideal) A B (ix3 n t e) = hmean (slab A n) (slab B n) t e := by
  rw [val_main_v25_apply]
  refine Finset.sum_congr rfl fun k _ => ?_
  have el : lidx_main_v25 (ix3 n t e) k = ix3 n t k := funext fun a => Fin.ext (by match a with | ⟨0, _⟩ => rfl | ⟨1, _⟩ => rfl | ⟨2, _⟩ => rfl)
  have er : ridx_main_v25 (ix3 n t e) k = ix3 n k e := funext fun a => Fin.ext (by match a with | ⟨0, _⟩ => rfl | ⟨1, _⟩ => rfl | ⟨2, _⟩ => rfl)
  rw [el, er, nrmB_apply, coln_apply]

/-! ## The three products against the squared weights -/

theorem num_apply (n : Fin 32) (t : Fin 1024) (p : Fin 20) :
    val_main_v28 (F := Ideal) A B W (ix3 n t p) = proj (fun t d => slab A n t d * hmean (slab A n) (slab B n) t d) (wsq W) t p := by
  rw [val_main_v28_apply]
  refine Finset.sum_congr rfl fun k _ => ?_
  have el : lidx_main_v28 (ix3 n t p) k = ix3 n t k := funext fun a => Fin.ext (by match a with | ⟨0, _⟩ => rfl | ⟨1, _⟩ => rfl | ⟨2, _⟩ => rfl)
  have er : ridx_main_v28 (ix3 n t p) k = ix2 p k := funext fun a => Fin.ext (by match a with | ⟨0, _⟩ => rfl | ⟨1, _⟩ => rfl)
  rw [el, er]
  show A (ix3 n t k) * val_main_v25 (F := Ideal) A B (ix3 n t k) * (W (ix2 p k) * W (ix2 p k)) = _
  rw [hmean_apply]; rfl

theorem sa_apply (n : Fin 32) (t : Fin 1024) (p : Fin 20) :
    val_main_v30 (F := Ideal) A W (ix3 n t p) = proj (fun t d => slab A n t d * slab A n t d) (wsq W) t p := by
  rw [val_main_v30_apply]
  refine Finset.sum_congr rfl fun k _ => ?_
  have el : lidx_main_v30 (ix3 n t p) k = ix3 n t k := funext fun a => Fin.ext (by match a with | ⟨0, _⟩ => rfl | ⟨1, _⟩ => rfl | ⟨2, _⟩ => rfl)
  have er : ridx_main_v30 (ix3 n t p) k = ix2 p k := funext fun a => Fin.ext (by match a with | ⟨0, _⟩ => rfl | ⟨1, _⟩ => rfl)
  rw [el, er]
  show A (ix3 n t k) * A (ix3 n t k) * (W (ix2 p k) * W (ix2 p k)) = _
  rfl

theorem sh_apply (n : Fin 32) (t : Fin 1024) (p : Fin 20) :
    val_main_v32 (F := Ideal) A B W (ix3 n t p) = proj (fun t d => hmean (slab A n) (slab B n) t d * hmean (slab A n) (slab B n) t d) (wsq W) t p := by
  rw [val_main_v32_apply]
  refine Finset.sum_congr rfl fun k _ => ?_
  have el : lidx_main_v32 (ix3 n t p) k = ix3 n t k := funext fun a => Fin.ext (by match a with | ⟨0, _⟩ => rfl | ⟨1, _⟩ => rfl | ⟨2, _⟩ => rfl)
  have er : ridx_main_v32 (ix3 n t p) k = ix2 p k := funext fun a => Fin.ext (by match a with | ⟨0, _⟩ => rfl | ⟨1, _⟩ => rfl)
  rw [el, er]
  show val_main_v25 (F := Ideal) A B (ix3 n t k) * val_main_v25 (F := Ideal) A B (ix3 n t k) * (W (ix2 p k) * W (ix2 p k)) = _
  rw [hmean_apply]; rfl

/-! ## The closing quotient, and the whole result -/

theorem result_apply (n : Fin 32) (t : Fin 1024) (p : Fin 20) :
    val_main_v40 (F := Ideal) A B W (ix3 n t p) = Gat A B W n t p := by
  show Ideal.div (val_main_v28 (F := Ideal) A B W (ix3 n t p))
      (Ideal.sqrt (max (val_main_v30 (F := Ideal) A W (ix3 n t p)) (val_main_v33 (F := Ideal) (ix3 n t p)))
        * Ideal.sqrt (max (val_main_v32 (F := Ideal) A B W (ix3 n t p)) (val_main_v36 (F := Ideal) (ix3 n t p)))) = _
  rw [val_main_v33_apply, val_main_v36_apply, num_apply, sa_apply, sh_apply]
  rfl

/-- THE REFERENCE'S RESULT is the specification's function of the three arguments. -/
theorem ref_eq : val_main_v40 (F := Ideal) A B W = G A B W := by
  funext i
  obtain ⟨n, t, p, rfl⟩ : ∃ (n : Fin 32) (t : Fin 1024) (p : Fin 20), i = ix3 n t p := ⟨i 0, i 1, i 2, eq_ix3 i⟩
  rw [G_ix3]
  exact result_apply A B W n t p

end Cert.Persp.Ref

end
-- ==== Proof.lean ====
/-
  The certificate of a per-token "perspective" cosine kernel against its jnp reference.

  For each of 32 batch entries, with `a`, `b` the [1024, 256] inputs and `W` the [20, 256] weights, both programs
  compute
    persp[t, p] = ⟨a[t] · hmean[t], W[p]²⟩ / ( sqrt(max(⟨a[t]², W[p]²⟩, ε)) · sqrt(max(⟨hmean[t]², W[p]²⟩, ε)) ),
  where `hmean = ob · colnorm(obᵀ · oa)`, `oa` and `ob` are `a` and `b` with each row divided by
  `sqrt(max(row's sum of squares, ε))`, and `colnorm` divides each column likewise. The kernel does one batch entry
  per grid point, with the squared weights transposed on the host beforehand and every matrix product fed through a
  narrower float format; the reference does all entries at once with batched contractions. At the ideal values a
  change of float format is the identity and each contraction is a finite sum in the extended reals, whose addition
  is commutative and associative, so both programs are the one function `Cert.Persp.G` of the arguments (Spec.lean):
  the kernel by KernelOps.lean (its body at an index) and KernelValue.lean (its blocks tile the result arrays), the
  reference by RefValue.lean (its stages read at an index). Both results of either program are that same array.
  No law of arithmetic beyond reordering finite sums is used, so the finiteness of the inputs is never opened.
  The ideal pass rewrote nothing, so `preserves` is trivial; the kernel's frames are the generated ones, and the
  reference's frame is its generated run with the results dropped.
-/
import proofs.«166553_j19155554140815_1_alg».proof.Defs
import proofs.«166553_j19155554140815_1_alg».proof.Proof.Gen.Kernel
import proofs.«166553_j19155554140815_1_alg».proof.Proof.Gen.Kernel.Skeleton
import proofs.«166553_j19155554140815_1_alg».proof.Proof.Gen.Kernel.Launch
import proofs.«166553_j19155554140815_1_alg».proof.Proof.Gen.Kernel.Points
import proofs.«166553_j19155554140815_1_alg».proof.Proof.Gen.Kernel.Frame
import proofs.«166553_j19155554140815_1_alg».proof.Proof.Gen.KernelIdeal
import proofs.«166553_j19155554140815_1_alg».proof.Proof.Gen.KernelIdeal.Skeleton
import proofs.«166553_j19155554140815_1_alg».proof.Proof.Gen.KernelIdeal.Launch
import proofs.«166553_j19155554140815_1_alg».proof.Proof.Gen.KernelIdeal.Points
import proofs.«166553_j19155554140815_1_alg».proof.Proof.Gen.KernelIdeal.Frame
import proofs.«166553_j19155554140815_1_alg».proof.Proof.Gen.ReferenceIdeal
import proofs.«166553_j19155554140815_1_alg».proof.Proof.Gen.Pre_finite_inputs
import proofs.«166553_j19155554140815_1_alg».proof.Proof.Gen.KernelIdeal.Value
import proofs.«166553_j19155554140815_1_alg».proof.Proof.Gen.ReferenceIdeal.Run
import proofs.«166553_j19155554140815_1_alg».proof.Proof.Gen.ReferenceIdeal.Read
import proofs.«166553_j19155554140815_1_alg».proof.Proof.KernelValue
import proofs.«166553_j19155554140815_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_kernel : Cert.frame_Kernel := fun m ρ _ => Cert.Kernel.Gen.frame m ρ

/-- The idealized kernel runs and leaves its arguments as they were: the generated frame. -/
theorem frame_kernelIdeal : Cert.frame_KernelIdeal := fun m ρ _ => Cert.KernelIdeal.Gen.frame m ρ

/-- The reference runs and leaves its arguments as they were: its generated run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the three arguments, both results of both programs end at the specification's
    function `G` of the kernel's arguments: the kernel's by its run (KernelValue.lean), the reference's by its run,
    whose result term is `G` of the reference's arguments (RefValue.lean), which agree with the kernel's. -/
theorem algebraic : Cert.algebraic_KernelIdeal_ReferenceIdeal := by
  intro m ρ m' ρ' _ hagree
  refine ⟨fun c => Cert.Persp.G (Cert.Persp.KernelRun.argA m c) (Cert.Persp.KernelRun.argB m c) (Cert.Persp.KernelRun.argW m c),
    fun c => Cert.Persp.G (Cert.Persp.KernelRun.argA m c) (Cert.Persp.KernelRun.argB m c) (Cert.Persp.KernelRun.argW m c),
    Cert.Persp.KernelRun.run m ρ, ?_⟩
  refine (θ_run Cert.ReferenceIdeal.defs _ _).mono (fun _ h c => ?_) (Cert.ReferenceIdeal.Value.run (F := Ideal) m' ρ')
  have hv : Cert.ReferenceIdeal.Value.res_main_v40 m' c
      = Cert.Persp.G (Cert.Persp.KernelRun.argA m c) (Cert.Persp.KernelRun.argB m c) (Cert.Persp.KernelRun.argW m c) := by
    rw [Cert.ReferenceIdeal.Read.val_main_v40_eq, Cert.Persp.Ref.ref_eq, (hagree c).1, (hagree c).2.1, (hagree c).2.2]
  exact ⟨(h c).1.trans hv, (h c).2.1.trans hv, (h c).2.2⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
